-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S16384x3 : Shape := ⟨2, ![16384, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : FVec F S4x4096x3 .f32) (main_arg1 : FVec F S16384x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S4x4096x3 : Shape := ⟨3, ![4, 4096, 3]⟩
abbrev S16384x3 : Shape := ⟨2, ![16384, 3]⟩
abbrev S3x16384 : Shape := ⟨2, ![3, 16384]⟩
abbrev S16384 : Shape := ⟨1, ![16384]⟩
abbrev S1x1024x3 : Shape := ⟨3, ![1, 1024, 3]⟩
abbrev S3x2048 : Shape := ⟨2, ![3, 2048]⟩
abbrev S2048 : Shape := ⟨1, ![2048]⟩
abbrev S1024x3 : Shape := ⟨2, ![1024, 3]⟩
abbrev S1024 : Shape := ⟨1, ![1024]⟩
abbrev S1024x1 : Shape := ⟨2, ![1024, 1]⟩
abbrev S1x2048 : Shape := ⟨2, ![1, 2048]⟩
abbrev S1024x2048 : Shape := ⟨2, ![1024, 2048]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S16384x3, .f32⟩
  | .hbm, ⟨2, _⟩ => ⟨S3x16384, .f32⟩
  | .hbm, ⟨3, _⟩ => ⟨S16384, .f32⟩
  | .hbm, ⟨4, _⟩ => ⟨S_, .f32⟩
  | .hbm, ⟨5, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S3x2048, .f32⟩
  | .local _ .vmem, ⟨3, _⟩ => ⟨S3x2048, .f32⟩
  | .local _ .vmem, ⟨4, _⟩ => ⟨S2048, .f32⟩
  | .local _ .vmem, ⟨5, _⟩ => ⟨S2048, .f32⟩
  | .local _ .vmem, ⟨6, _⟩ => ⟨S2048, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let arg2 : BitVec 32 := BitVec.ofNat 32 (i 2).val
  let c3_i32_11 : BitVec 32 := 3#32
  let v45 : BitVec 1 := Scalar.cmpi .eq arg2 c3_i32_11
  let v46 : BitVec 1 := Scalar.andi v44 v45
  let v47 : BitVec 32 := Scalar.extui v46
  let c0_i32_12 : BitVec 32 := 0#32
  let v48 : BitVec 1 := Scalar.cmpi .ne v47 c0_i32_12
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  transposes_S16384x3_S3x16384_1_0 : S16384x3.Transposes [1, 0] S3x16384
  inb_S2048_S2048_0 : ∀ a, (![0] : Fin 1 → Nat) a + S2048.size a ≤ S2048.size a
  h_S2048 : 0 < S2048.numel
  shapeCasts_S2048_S2048 : S2048.ShapeCasts S2048
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  slices_S1024x3_o0_0_S1024x1 : S1024x3.Slices ![0, 0] S1024x1
  slices_S3x2048_o0_0_S1x2048 : S3x2048.Slices ![0, 0] S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  reduces_S1024x2048_S2048 : S1024x2048.Reduces [0] S2048
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x16384.size a
  hwx0_1 : ∀ i : grid0.Coords, EltTy.bits .f32 = 32 ∨ (Rect.block (s := S3x16384) S3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16384.size a
  hwx0_2 : ∀ i : grid0.Coords, EltTy.bits .f32 = 32 ∨ (Rect.block (s := S16384) S2048.size (cc0_transform_2 i) (hinb0_2 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S16384x3 : Shape := ⟨2, ![16384, 3]⟩
abbrev S_ : Shape := ⟨0, ![]⟩
abbrev S4x4096 : Shape := ⟨2, ![4, 4096]⟩
abbrev S16384 : Shape := ⟨1, ![16384]⟩
abbrev S4x4096x16384 : Shape := ⟨3, ![4, 4096, 16384]⟩
abbrev S4x4096x1 : Shape := ⟨3, ![4, 4096, 1]⟩
abbrev S1x1x16384 : Shape := ⟨3, ![1, 1, 16384]⟩
abbrev S4x16384 : Shape := ⟨2, ![4, 16384]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S16384x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S4x4096x16384, .f32⟩
  | .hbm, ⟨9, _⟩ => ⟨S4x4096x1, .f32⟩
  | .hbm, ⟨10, _⟩ => ⟨S1x1x16384, .f32⟩
  | .hbm, ⟨11, _⟩ => ⟨S4x4096x16384, .f32⟩
  | .hbm, ⟨12, _⟩ => ⟨S4x4096x16384, .f32⟩
  | .hbm, ⟨13, _⟩ => ⟨S4x4096x16384, .f32⟩
  | .hbm, ⟨14, _⟩ => ⟨S_, .f32⟩
  | .hbm, ⟨15, _⟩ => ⟨S4x4096x16384, .f32⟩
  | .hbm, ⟨16, _⟩ => ⟨S4x4096x16384, .f32⟩
  | .hbm, ⟨17, _⟩ => ⟨S4x4096x16384, .f32⟩
  | .hbm, ⟨18, _⟩ => ⟨S_, .f32⟩
  | .hbm, ⟨19, _⟩ => ⟨S4x16384, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  reducesTo_S16384x3_S16384_d1 : S16384x3.ReducesTo [1] S16384
  bcast_S4x4096_S4x4096x1_0_1 : S4x4096.BroadcastsInDim S4x4096x1 (![0, 1] : Fin 2 → Fin S4x4096x1.rank)
  bcast_S16384_S1x1x16384_2 : S16384.BroadcastsInDim S1x1x16384 (![2] : Fin 1 → Fin S1x1x16384.rank)
  bcast_S4x4096x1_S4x4096x16384_0_1_2 : S4x4096x1.BroadcastsInDim S4x4096x16384 (![0, 1, 2] : Fin 3 → Fin S4x4096x16384.rank)
  bcast_S1x1x16384_S4x4096x16384_0_1_2 : S1x1x16384.BroadcastsInDim S4x4096x16384 (![0, 1, 2] : Fin 3 → Fin S4x4096x16384.rank)
  bcast_S_S4x4096x16384 : S_.BroadcastsInDim S4x4096x16384 (![] : Fin 0 → Fin S4x4096x16384.rank)
  reducesTo_S4x4096x16384_S4x16384_d1 : S4x4096x16384.ReducesTo [1] S4x16384
  reducesTo_S4x16384_S16384_d0 : S4x16384.ReducesTo [0] S16384
  reducesTo_S16384_S_d0 : S16384.ReducesTo [0] S_
  dot_S4x4096x3_S16384x3_S4x4096x16384_2_1_01_0_n_n_wf : DotDims.WF S4x4096x3 S16384x3 S4x4096x16384 [2] [1] [0, 1] [0] [] []

variable [Facts₀]

def dot_S4x4096x3_S16384x3_S4x4096x16384_2_1_01_0_n_n : DotDims S4x4096x3 S16384x3 S4x4096x16384 where
  lhsContracting := [2]
  rhsContracting := [1]
  lhsNonContracting := [0, 1]
  rhsNonContracting := [0]
  lhsBatch := []
  rhsBatch := []
  wf := dot_S4x4096x3_S16384x3_S4x4096x16384_2_1_01_0_n_n_wf

class Facts : Prop extends Facts₀ where

variable [Facts]
-- ==== Proof.Dist.lean ====
/-
  Squared distances between surface points and targets, and the least of them per target.

  For a surface array `A` of shape [4, 4096, 3] and a target array `B` of shape [16384, 3] over the extended reals, the
  squared distance of surface point (s, n) to target M is written the expanded way,
  (|a|² + |b|²) − 2·(a·b), each of the three terms a sum over the three coordinates.  `nearest A B M` is the least such
  value over all (s, n), taken as the reference takes it: for each surface the least over its 4096 points, then the least
  over the four surfaces, each fold starting from the cap value.

  The same least value is reached by running through the 16 tiles (s, b) of 1024 consecutive points — tile q is surface
  q / 4, points (q % 4)·1024 … — keeping a running minimum that starts at the cap: `running_last`.  Both sides are
  characterised by their lower bounds, so nothing is assumed of the cap or of the entries.
-/
import Idealize.ShloMosaic.PureOps.Ideal
import Idealize.ShloMosaic.Lib.ValueIdx

noncomputable section

namespace Cert.Nearest

open Idealize.ShloMosaic Idealize.ShloMosaic.ValueIdx

/-- The value every minimum starts from (the f32 pattern of +∞, read at the extended reals). -/
def cap : Ideal .f32 := Ideal.ofBits .f32 0x7F800000#32
/-- The factor of the cross term (the f32 pattern of 2.0). -/
def two : Ideal .f32 := Ideal.ofBits .f32 0x40000000#32

abbrev Surf := (⟨3, ![4, 4096, 3]⟩ : Shape).Idx → Ideal .f32
abbrev Targ := (⟨2, ![16384, 3]⟩ : Shape).Idx → Ideal .f32

/-- The expanded squared distance of surface point (s, n) to target M. -/
def sqDist (A : Surf) (B : Targ) (s : Fin 4) (n : Fin 4096) (M : Fin 16384) : Ideal .f32 :=
  ((∑ k : Fin 3, A (ix3 s n k) * A (ix3 s n k)) + ∑ k : Fin 3, B (ix2 M k) * B (ix2 M k))
    - two * ∑ k : Fin 3, A (ix3 s n k) * B (ix2 M k)

/-- The least squared distance to target M: per surface over its points, then over the surfaces. -/
def nearest (A : Surf) (B : Targ) (M : Fin 16384) : Ideal .f32 :=
  Finset.univ.fold min cap fun s : Fin 4 => Finset.univ.fold min cap fun n : Fin 4096 => sqDist A B s n M

/-- Tile q's surface. -/
def sOf (q : ℕ) : Fin 4 := ⟨q / 4 % 4, Nat.mod_lt _ (by norm_num)⟩
/-- Point r of tile q, as a point of its surface. -/
def nOf (q : ℕ) (r : Fin 1024) : Fin 4096 := ⟨q % 4 * 1024 + r.val, by have := r.isLt; omega⟩
/-- Target j of target tile g. -/
def MOf (g : ℕ) (j : Fin 2048) : Fin 16384 := ⟨g % 8 * 2048 + j.val, by have := j.isLt; omega⟩

/-- The least squared distance from the 1024 points of tile q to target j of target tile g. -/
def tileMin (A : Surf) (B : Targ) (g q : ℕ) (j : Fin 2048) : Ideal .f32 :=
  Finset.univ.fold min cap fun r : Fin 1024 => sqDist A B (sOf q) (nOf q r) (MOf g j)

/-- The running minimum after tiles 0 … q. -/
def running (A : Surf) (B : Targ) (g : ℕ) : ℕ → Fin 2048 → Ideal .f32
  | 0, j => min cap (tileMin A B g 0 j)
  | q + 1, j => min (running A B g q j) (tileMin A B g (q + 1) j)

/-- Its lower bounds: those of the cap and of every entry of tiles 0 … q. -/
theorem le_running_iff (A : Surf) (B : Targ) (g : ℕ) (j : Fin 2048) (c : Ideal .f32) :
    ∀ q, c ≤ running A B g q j ↔ c ≤ cap ∧ ∀ q', q' ≤ q → ∀ r, c ≤ sqDist A B (sOf q') (nOf q' r) (MOf g j)
  | 0 => by
    unfold running tileMin
    rw [le_min_iff, Finset.le_fold_min]
    constructor
    · rintro ⟨hb, -, hf⟩
      refine ⟨hb, fun q' hq' r => ?_⟩
      obtain rfl : q' = 0 := Nat.le_zero.mp hq'
      exact hf r (Finset.mem_univ _)
    · rintro ⟨hb, hf⟩
      exact ⟨hb, hb, fun r _ => hf 0 (Nat.le_refl _) r⟩
  | q + 1 => by
    unfold running tileMin
    rw [le_min_iff, le_running_iff A B g j c q, Finset.le_fold_min]
    constructor
    · rintro ⟨⟨hb, hf⟩, -, hl⟩
      refine ⟨hb, fun q' hq' r => ?_⟩
      rcases Nat.lt_or_ge q' (q + 1) with h | h
      · exact hf q' (Nat.lt_succ_iff.mp h) r
      · obtain rfl : q' = q + 1 := Nat.le_antisymm hq' h
        exact hl r (Finset.mem_univ _)
    · rintro ⟨hb, hf⟩
      exact ⟨⟨hb, fun q' hq' r => hf q' (Nat.le_succ_of_le hq') r⟩, hb, fun r _ => hf (q + 1) (Nat.le_refl _) r⟩

/-- After the last of the 16 tiles the running minimum is the least squared distance to the target. -/
theorem running_last (A : Surf) (B : Targ) (g : ℕ) (j : Fin 2048) :
    running A B g 15 j = nearest A B (MOf g j) := by
  refine eq_of_forall_le_iff fun c => ?_
  unfold nearest
  rw [le_running_iff, Finset.le_fold_min]
  constructor
  · rintro ⟨hb, hf⟩
    refine ⟨hb, fun s _ => ?_⟩
    rw [Finset.le_fold_min]
    refine ⟨hb, fun n _ => ?_⟩
    have hs := s.isLt
    have hn := n.isLt
    have h := hf (4 * s.val + n.val / 1024) (by omega) ⟨n.val % 1024, Nat.mod_lt _ (by norm_num)⟩
    have e1 : sOf (4 * s.val + n.val / 1024) = s := Fin.ext (by show (4 * s.val + n.val / 1024) / 4 % 4 = s.val; omega)
    have e2 : nOf (4 * s.val + n.val / 1024) ⟨n.val % 1024, Nat.mod_lt _ (by norm_num)⟩ = n :=
      Fin.ext (by show (4 * s.val + n.val / 1024) % 4 * 1024 + n.val % 1024 = n.val; omega)
    rwa [e1, e2] at h
  · rintro ⟨hb, hf⟩
    refine ⟨hb, fun q' _ r => ?_⟩
    exact ((Finset.le_fold_min _).mp (hf (sOf q') (Finset.mem_univ _))).2 _ (Finset.mem_univ _)

end Cert.Nearest

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayValue.lean ====
/-
  The kernel body's arithmetic at one grid point, read index by index over the extended reals.

  From a block of 1024 surface points (three coordinates each) and a block of 2048 targets (laid coordinate-major) the
  body forms, for every pair (r, j), the expanded squared distance (|a_r|² + |b_j|²) − 2·(a_r·b_j), the dot product
  written out as three products added left to right; takes, per target j, the least over the 1024 points, a fold of
  `min` from the cap; and folds that into the running value it was handed.
-/
import proofs.«180294_j69054484185810_1_alg».proof.Proof.Gen.KernelIdeal.Skeleton
import proofs.«180294_j69054484185810_1_alg».proof.Proof.Dist
import proofs.«180294_j69054484185810_1_alg».proof.Proof.LibKeepdims
import Idealize.ShloMosaic.Lib.Pipeline.Value
import Idealize.ShloMosaic.Lib.ValueLayout
import Idealize.ShloMosaic.PureOps.Reduce
import Idealize.ShloMosaic.PureOps.Ideal.Laws

noncomputable section

namespace Cert.KernelIdeal.PayValue

open Cert.KernelIdeal Cert.KernelIdeal.Gen
open Idealize.ShloMosaic Idealize.ShloMosaic.ValueIdx Cert.Nearest Cert.LibKeepdims

/-- The squared distance of point r of a surface block to target j of a target block. -/
def blockDist (x0 : Vec Ideal S1x1024x3 .f32) (x1 : Vec Ideal S3x2048 .f32) (r : Fin 1024) (j : Fin 2048) : Ideal .f32 :=
  ((∑ k : Fin 3, x0 (ix3 (0 : Fin 1) r k) * x0 (ix3 (0 : Fin 1) r k)) + ∑ k : Fin 3, x1 (ix2 k j) * x1 (ix2 k j))
    - two * ((x0 (ix3 (0 : Fin 1) r (0 : Fin 3)) * x1 (ix2 (0 : Fin 3) j)
        + x0 (ix3 (0 : Fin 1) r (1 : Fin 3)) * x1 (ix2 (1 : Fin 3) j))
        + x0 (ix3 (0 : Fin 1) r (2 : Fin 3)) * x1 (ix2 (2 : Fin 3) j))

section Pieces
variable (u : FVec Ideal S1024x3 .f32) (w : FVec Ideal S3x2048 .f32)

/-- The squared norms of the points, summed along the coordinate axis, kept as a column and laid along the targets. -/
theorem rowNorm_apply (h : S1024x3.Reduces [1] S1024) (hφ : FKind.Formats .f32) (hacc : (0x00000000#32 : BitVec 32) = FKind.add.neutral .f32 hφ)
    (hc : S1024.ShapeCasts S1024x1) (hb : S1024x1.Broadcasts S1024x2048) (r : Fin 1024) (c : Fin 2048) :
    broadcastTo S1024x2048 (shapeCast S1024x1 (multiReduction .add [1] S1024 (mulf u u) 0x00000000#32 h hφ hacc) hc) hb (ix2 r c)
      = ∑ k : Fin 3, u (ix2 r k) * u (ix2 r k) := by
  refine (broadcastTo_a1_ab_apply _ hb r c).trans ?_
  refine (shapeCast_a_a1_apply _ hc r 0).trans ?_
  refine (Ideal.multiReduction_add_single (mulf u u) _ h hφ hacc (ix1 r)).trans ?_
  refine Finset.sum_congr rfl fun k _ => ?_
  have e : h.lift (ix1 r) k = ix2 r k := funext fun a => Fin.ext (by match a with | ⟨0, _⟩ => rfl | ⟨1, _⟩ => rfl)
  exact congrArg (fun i => u i * u i) e

/-- The squared norms of the targets, summed along the coordinate axis, kept as a row and laid along the points. -/
theorem colNorm_apply (h : S3x2048.Reduces [0] S2048) (hφ : FKind.Formats .f32) (hacc : (0x00000000#32 : BitVec 32) = FKind.add.neutral .f32 hφ)
    (hc : S2048.ShapeCasts S1x2048) (hb : S1x2048.Broadcasts S1024x2048) (r : Fin 1024) (c : Fin 2048) :
    broadcastTo S1024x2048 (shapeCast S1x2048 (multiReduction .add [0] S2048 (mulf w w) 0x00000000#32 h hφ hacc) hc) hb (ix2 r c)
      = ∑ k : Fin 3, w (ix2 k c) * w (ix2 k c) := by
  refine (broadcastTo_1b_ab_apply _ hb r c).trans ?_
  refine (shapeCast_a_1a_apply _ hc 0 c).trans ?_
  refine (Ideal.multiReduction_add_single (mulf w w) _ h hφ hacc (ix1 c)).trans ?_
  refine Finset.sum_congr rfl fun k _ => ?_
  have e : h.lift (ix1 c) k = ix2 k c := funext fun a => Fin.ext (by match a with | ⟨0, _⟩ => rfl | ⟨1, _⟩ => rfl)
  exact congrArg (fun i => w i * w i) e

/-- Coordinate k of the points, as a column laid along the targets. -/
theorem rowCoord_apply (k : Fin 3) (hs : S1024x3.Slices ![0, k.val] S1024x1) (hb : S1024x1.Broadcasts S1024x2048)
    (r : Fin 1024) (c : Fin 2048) :
    broadcastTo S1024x2048 (extractStridedSlice S1024x1 ![0, k.val] u hs) hb (ix2 r c) = u (ix2 r k) := by
  refine (broadcastTo_a1_ab_apply _ hb r c).trans ?_
  exact slice2_axis1_apply k.val u hs r 0 k rfl

/-- Coordinate k of the targets, as a row laid along the points. -/
theorem colCoord_apply (k : Fin 3) (hs : S3x2048.Slices ![k.val, 0] S1x2048) (hb : S1x2048.Broadcasts S1024x2048)
    (r : Fin 1024) (c : Fin 2048) :
    broadcastTo S1024x2048 (extractStridedSlice S1x2048 ![k.val, 0] w hs) hb (ix2 r c) = w (ix2 k c) := by
  refine (broadcastTo_1b_ab_apply _ hb r c).trans ?_
  exact slice2_axis0_apply k.val w hs 0 c k rfl

end Pieces

/-- A minimum down the rows of a 1024 × 2048 array, at column j: the fold of `min` from the accumulator word's value. -/
theorem colMin_apply (src : FVec Ideal S1024x2048 .f32) (acc : BitVec 32) (h : S1024x2048.Reduces [0] S2048)
    (hφ : FKind.Formats .f32) (hacc : acc = FKind.minimumf.neutral .f32 hφ) (j : Fin 2048) :
    multiReduction .minimumf [0] S2048 src acc h hφ hacc (ix1 j)
      = Finset.univ.fold min (Ideal.ofBits .f32 acc) fun r : Fin 1024 => src (ix2 r j) := by
  refine ((multiReduction_minimumf_eq_fold src acc h hφ hacc (ix1 j)).trans
    (h.fold_filter_drop_single _ _ src (ix1 j))).trans ?_
  show Finset.univ.fold min (Ideal.ofBits .f32 acc) _ = _
  refine Finset.fold_congr fun r _ => ?_
  have e : h.lift (ix1 j) r = ix2 r j := funext fun a => Fin.ext (by match a with | ⟨0, _⟩ => rfl | ⟨1, _⟩ => rfl)
  exact congrArg src e

/-- The body's update at target j: the running value against the least squared distance from the block's points. -/
theorem pay3_apply (x0 : Vec Ideal S1x1024x3 .f32) (x1 : Vec Ideal S3x2048 .f32) (xs : Vec Ideal S2048 .f32) (j : Fin 2048) :
    k0_pay3 (F := Ideal) x0 x1 xs (ix1 j)
      = min (xs (ix1 j)) (Finset.univ.fold min cap fun r : Fin 1024 => blockDist x0 x1 r j) := by
  unfold k0_pay3
  refine (minimumf_apply _ _ _).trans (congrArg (min (xs (ix1 j))) ?_)
  refine (colMin_apply _ _ _ _ _ j).trans ?_
  show Finset.univ.fold min cap _ = _
  refine Finset.fold_congr fun r _ => ?_
  refine (subf_apply _ _ _).trans ?_
  unfold blockDist
  refine congrArg₂ (· - ·) ?_ ?_
  · refine (addf_apply _ _ _).trans (congrArg₂ (· + ·) ?_ ?_)
    · refine (rowNorm_apply _ _ _ _ _ _ r j).trans (Finset.sum_congr rfl fun k _ => ?_)
      rw [shapeCast_1ab_ab_apply]
    · refine (colNorm_apply _ _ _ _ _ _ r j).trans (Finset.sum_congr rfl fun k _ => ?_)
      rw [shapeCast_self]
  · refine (mulf_apply _ _ _).trans (congrArg₂ (· * ·) rfl ?_)
    refine (addf_apply _ _ _).trans (congrArg₂ (· + ·) ?_ ?_)
    · refine (addf_apply _ _ _).trans (congrArg₂ (· + ·) ?_ ?_)
      · refine (mulf_apply _ _ _).trans (congrArg₂ (· * ·) ?_ ?_)
        · refine (rowCoord_apply _ (0 : Fin 3) _ _ r j).trans ?_
          rw [shapeCast_1ab_ab_apply]
        · refine (colCoord_apply _ (0 : Fin 3) _ _ r j).trans ?_
          rw [shapeCast_self]
      · refine (mulf_apply _ _ _).trans (congrArg₂ (· * ·) ?_ ?_)
        · refine (rowCoord_apply _ (1 : Fin 3) _ _ r j).trans ?_
          rw [shapeCast_1ab_ab_apply]
        · refine (colCoord_apply _ (1 : Fin 3) _ _ r j).trans ?_
          rw [shapeCast_self]
    · refine (mulf_apply _ _ _).trans (congrArg₂ (· * ·) ?_ ?_)
      · refine (rowCoord_apply _ (2 : Fin 3) _ _ r j).trans ?_
        rw [shapeCast_1ab_ab_apply]
      · refine (colCoord_apply _ (2 : Fin 3) _ _ r j).trans ?_
        rw [shapeCast_self]

/-- Where a surface block's rows are rows of the surface array and a target block's columns are targets of the target array,
    the block's squared distance is the arrays'. -/
theorem blockDist_eq (x0 : Vec Ideal S1x1024x3 .f32) (x1 : Vec Ideal S3x2048 .f32) (A : Surf) (B : Targ)
    (s : Fin 4) (n : Fin 4096) (M : Fin 16384) (r : Fin 1024) (j : Fin 2048)
    (h0 : ∀ k : Fin 3, x0 (ix3 (0 : Fin 1) r k) = A (ix3 s n k)) (h1 : ∀ k : Fin 3, x1 (ix2 k j) = B (ix2 M k)) :
    blockDist x0 x1 r j = sqDist A B s n M := by
  unfold blockDist sqDist
  simp only [h0, h1, Fin.sum_univ_three]

/-- The body's update at target j of target tile g, the blocks being tile q's points and tile g's targets: the running
    value against the tile's least squared distance. -/
theorem pay3_tile (x0 : Vec Ideal S1x1024x3 .f32) (x1 : Vec Ideal S3x2048 .f32) (xs : Vec Ideal S2048 .f32) (A : Surf) (B : Targ)
    (g q : ℕ) (j : Fin 2048)
    (h0 : ∀ (r : Fin 1024) (k : Fin 3), x0 (ix3 (0 : Fin 1) r k) = A (ix3 (sOf q) (nOf q r) k))
    (h1 : ∀ k : Fin 3, x1 (ix2 k j) = B (ix2 (MOf g j) k)) :
    k0_pay3 (F := Ideal) x0 x1 xs (ix1 j) = min (xs (ix1 j)) (tileMin A B g q j) := by
  refine (pay3_apply x0 x1 xs j).trans (congrArg (min (xs (ix1 j))) ?_)
  unfold tileMin
  exact Finset.fold_congr fun r _ => blockDist_eq x0 x1 A B (sOf q) (nOf q r) (MOf g j) r j (h0 r) h1

end Cert.KernelIdeal.PayValue

end
-- ==== Proof.KernelValue.lean ====
/-
  The kernel's result, read off its frame run over the extended reals.

  The grid has 128 points, t = 16·g + q: g the target tile (2048 targets), q the tile of 1024 surface points (surface
  q / 4, points (q % 4)·1024 …).  At every point the body folds the tile's least squared distances into a scratch vector
  it carries from point to point; at q = 0 it first resets the scratch to the cap, and at q = 15 it copies the scratch
  into the output block, which is then written back as block g of the result vector.  So after point t the scratch holds
  the running minimum over tiles 0 … q, at q = 15 the least squared distance to each target of tile g, and the result
  vector ends holding, at every target, its least squared distance over all surface points.  The host then sums it.
-/
import proofs.«180294_j69054484185810_1_alg».proof.Proof.Gen.KernelIdeal.Frame
import proofs.«180294_j69054484185810_1_alg».proof.Proof.PayValue
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.PayValue Cert.Nearest
open Idealize.ShloMosaic.ValueIdx

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves, as a value of what it was handed -/

section Pieces
variable {F : FTy → Type} [FloatOps F]

/-- A point that neither resets nor copies out leaves in the scratch the update of what the scratch held. -/
theorem sout_B (c : Dev nD) (i : grid0.Coords) (a3 : Memref sig .tc .vmem S1x1024x3 .f32) (h3 : a3.IsWhole)
    (a4 : Memref sig .tc .vmem S3x2048 .f32) (h4 : a4.IsWhole) (a5 : Memref sig .tc .vmem S2048 .f32) (h5 : a5.IsWhole)
    (a6 : Memref sig .tc .vmem S2048 .f32) (h6 : a6.IsWhole) (hc0 : ¬cond0_0 i) (hc1 : ¬cond0_1 i)
    (x0 : Vec F S1x1024x3 .f32) (x1 : Vec F S3x2048 .f32) (xs0 : Vec F S2048 .f32) :
    sout0_B_0 c i a3 h3 a4 h4 a5 h5 a6 h6 hc0 hc1 x0 x1 xs0 = k0_pay1 (k0_pay3 x0 x1 xs0) := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz1]
  simp only [View.readAt_eq_ld, h3.read_unread, h4.read_unread, h6.read_unread, View.ld_unit_zero (S := S1x1024x3) hz3,
    View.ld_unit_zero (S := S3x2048) hz2, View.ld_unit_zero (S := S2048) hz1]

/-- The first point of a target tile resets the scratch to the cap and leaves the update of that. -/
theorem sout_A (c : Dev nD) (i : grid0.Coords) (a3 : Memref sig .tc .vmem S1x1024x3 .f32) (h3 : a3.IsWhole)
    (a4 : Memref sig .tc .vmem S3x2048 .f32) (h4 : a4.IsWhole) (a5 : Memref sig .tc .vmem S2048 .f32) (h5 : a5.IsWhole)
    (a6 : Memref sig .tc .vmem S2048 .f32) (h6 : a6.IsWhole) (hc0 : cond0_0 i) (hc1 : ¬cond0_1 i)
    (x0 : Vec F S1x1024x3 .f32) (x1 : Vec F S3x2048 .f32) :
    sout0_A_0 c i a3 h3 a4 h4 a5 h5 a6 h6 hc0 hc1 x0 x1 = k0_pay1 (k0_pay3 x0 x1 k0_pay2) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048) hz1]
  simp only [View.readAt_eq_ld, h3.read_unread, h4.read_unread, View.ld_unit_zero (S := S1x1024x3) hz3,
    View.ld_unit_zero (S := S3x2048) hz2, View.readCov_unit_zero (S := S2048) _ hz1]

/-- The last point of a target tile leaves in the scratch the update of what the scratch held, -/
theorem sout_C (c : Dev nD) (i : grid0.Coords) (a3 : Memref sig .tc .vmem S1x1024x3 .f32) (h3 : a3.IsWhole)
    (a4 : Memref sig .tc .vmem S3x2048 .f32) (h4 : a4.IsWhole) (a5 : Memref sig .tc .vmem S2048 .f32) (h5 : a5.IsWhole)
    (a6 : Memref sig .tc .vmem S2048 .f32) (h6 : a6.IsWhole) (hc0 : ¬cond0_0 i) (hc1 : cond0_1 i)
    (x0 : Vec F S1x1024x3 .f32) (x1 : Vec F S3x2048 .f32) (xs0 : Vec F S2048 .f32) :
    sout0_C_0 c i a3 h3 a4 h4 a5 h5 a6 h6 hc0 hc1 x0 x1 xs0 = k0_pay1 (k0_pay3 x0 x1 xs0) := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz1]
  simp only [View.readAt_eq_ld, h3.read_unread, h4.read_unread, h6.read_unread, View.ld_unit_zero (S := S1x1024x3) hz3,
    View.ld_unit_zero (S := S3x2048) hz2, View.ld_unit_zero (S := S2048) hz1]

/-- and copies exactly that into the output block. -/
theorem out_C (c : Dev nD) (i : grid0.Coords) (a3 : Memref sig .tc .vmem S1x1024x3 .f32) (h3 : a3.IsWhole)
    (a4 : Memref sig .tc .vmem S3x2048 .f32) (h4 : a4.IsWhole) (a5 : Memref sig .tc .vmem S2048 .f32) (h5 : a5.IsWhole)
    (a6 : Memref sig .tc .vmem S2048 .f32) (h6 : a6.IsWhole) (hc0 : ¬cond0_0 i) (hc1 : cond0_1 i)
    (x0 : Vec F S1x1024x3 .f32) (x1 : Vec F S3x2048 .f32) (xs0 : Vec F S2048 .f32) :
    out0_C_2 c i a3 h3 a4 h4 a5 h5 a6 h6 hc0 hc1 x0 x1 xs0 = k0_pay1 (k0_pay3 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz1]
  simp only [View.readAt_eq_ld, h3.read_unread, h4.read_unread, h6.read_unread, View.ld_unit_zero (S := S1x1024x3) hz3,
    View.ld_unit_zero (S := S3x2048) hz2, View.ld_unit_zero (S := S2048) hz1, View.readCov_unit_zero (S := S2048) _ hz1]

/-- The stored value is the update itself (a reshape to the same shape). -/
theorem pay1_eq (v : FVec F S2048 .f32) : k0_pay1 v = v := shapeCast_self v _

end Pieces

/-! ## The blocks, the running minimum, the result -/

section Value
variable (m : (ℓ : Loc nD τ sig) → Buf (Elt Ideal) ℓ) (ρ : Dev nD → PrngReg)

/-- The surface array and the target array, as launched. -/
abbrev surf (c : Dev nD) : Surf := m ((c : Thread nD τ).loc main_arg0)
abbrev targ (c : Dev nD) : Targ := m ((c : Thread nD τ).loc main_arg1)

/-- The reset value is the cap everywhere. -/
theorem pay2_apply (i : S2048.Idx) : k0_pay2 (F := Ideal) i = cap := by
  unfold k0_pay2
  rw [shapeCast_self]
  rfl

/-- Which block each window is on at point t = 16·g + q: surface q / 4 and point block q % 4; target block g. -/
theorem idx_facts : ∀ t : Fin cfg0.N,
    win0_0.index t (0 : Fin 3) = t.val / 4 % 4 ∧ win0_0.index t (1 : Fin 3) = t.val % 4 ∧ win0_0.index t (2 : Fin 3) = 0
    ∧ win0_1.index t (0 : Fin 2) = 0 ∧ win0_1.index t (1 : Fin 2) = t.val / 16
    ∧ win0_2.index t (0 : Fin 1) = t.val / 16 :=
  (by decide +kernel : ∀ t : Fin grid0.N, _)

/-- Row r of the surface block at point t is point (q % 4)·1024 + r of surface q / 4. -/
theorem blk0_apply (c : Dev nD) (t : Fin cfg0.N) (u : Fin 1) (r : Fin 1024) (k : Fin 3) :
    (iblk m c 0 t : Vec Ideal S1x1024x3 .f32) (ix3 u r k) = surf m c (ix3 (sOf (t.val % 16)) (nOf (t.val % 16) r) k) := by
  obtain ⟨e0, e1, e2, -, -, -⟩ := idx_facts t
  have hN : t.val < 128 := lt_of_lt_of_eq t.isLt (show cfg0.N = 128 from N_0)
  unfold iblk
  rw [View.read_apply]
  show V m c main_arg0 (((cfg0.win 0).blk t).view.emb (ix3 u r k)) = _
  refine (congrFun (V_main_arg0 m c) _).trans ?_
  refine congrArg (m ((c : Thread nD τ).loc main_arg0)) (funext fun a => Fin.ext ?_)
  have hu := u.isLt
  match a with
  | ⟨0, _⟩ => show win0_0.index t (0 : Fin 3) * 1 + 1 * u.val = t.val % 16 / 4 % 4; rw [e0]; omega
  | ⟨1, _⟩ => show win0_0.index t (1 : Fin 3) * 1024 + 1 * r.val = t.val % 16 % 4 * 1024 + r.val; rw [e1]; omega
  | ⟨2, _⟩ => show win0_0.index t (2 : Fin 3) * 3 + 1 * k.val = k.val; rw [e2]; omega

/-- The array the second window is cut from is the target array laid coordinate-major. -/
theorem targT_apply (c : Dev nD) (k : Fin 3) (M : Fin 16384) : V m c main_v0 (ix2 k M) = targ m c (ix2 M k) := by
  have e : (V m c main_v0 : S3x16384.Idx → Ideal .f32)
      = transpose S3x16384 [1, 0] (m ((c : Thread nD τ).loc main_arg1)) Facts₀.transposes_S16384x3_S3x16384_1_0 := by
    show StableHlo.after hostOps0 (fun b => m (c, b)) (Proc.devRef .tc main_v0) = _
    after_results
  rw [e]
  exact transpose_ix2_apply _ _ k M

/-- Column j of the target block at point t is target g·2048 + j. -/
theorem blk1_apply (c : Dev nD) (t : Fin cfg0.N) (k : Fin 3) (j : Fin 2048) :
    (iblk m c 1 t : Vec Ideal S3x2048 .f32) (ix2 k j) = targ m c (ix2 (MOf (t.val / 16) j) k) := by
  obtain ⟨-, -, -, e0, e1, -⟩ := idx_facts t
  have hN : t.val < 128 := lt_of_lt_of_eq t.isLt (show cfg0.N = 128 from N_0)
  unfold iblk
  rw [View.read_apply]
  show V m c main_v0 (((cfg0.win 1).blk t).view.emb (ix2 k j)) = _
  refine Eq.trans (congrArg (V m c main_v0) (funext fun a => Fin.ext ?_)) (targT_apply m c k (MOf (t.val / 16) j))
  match a with
  | ⟨0, _⟩ => show win0_1.index t (0 : Fin 2) * 3 + 1 * k.val = k.val; rw [e0]; omega
  | ⟨1, _⟩ => show win0_1.index t (1 : Fin 2) * 2048 + 1 * j.val = t.val / 16 % 8 * 2048 + j.val; rw [e1]; omega

/-- The body's update at point t: the running value against tile q's least squared distance to each target of tile g. -/
theorem point_eq (c : Dev nD) (t : Fin cfg0.N) (xs : Vec Ideal S2048 .f32) (j : Fin 2048) :
    k0_pay3 (F := Ideal) (iblk m c 0 t) (iblk m c 1 t) xs (ix1 j)
      = min (xs (ix1 j)) (tileMin (surf m c) (targ m c) (t.val / 16) (t.val % 16) j) :=
  pay3_tile (iblk m c 0 t) (iblk m c 1 t) xs (surf m c) (targ m c) (t.val / 16) (t.val % 16) j
    (fun r k => blk0_apply m c t 0 r k) (fun k => blk1_apply m c t k j)

/-- After point n the scratch holds the running minimum over tiles 0 … n % 16 of target tile n / 16. -/
theorem scratch_eq (c : Dev nD) : ∀ (n : ℕ) (hn : n < cfg0.N) (j : Fin 2048),
    (outsAt0 m c n hn).2 (ix1 j) = running (surf m c) (targ m c) (n / 16) (n % 16) j
  | 0, hn, j => by
    rw [outsAt0_A m c ⟨0, hn⟩ rfl (by show ¬(0 % 16 = 15); decide)]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) _ _ (iblk m c 0 ⟨0, hn⟩) (iblk m c 1 ⟨0, hn⟩)) (ix1 j)).trans ?_
    rw [pay1_eq]
    refine (point_eq m c ⟨0, hn⟩ _ j).trans ?_
    rw [pay2_apply]
    rfl
  | n + 1, hn, j => by
    have hN : n + 1 < 128 := lt_of_lt_of_eq hn (show cfg0.N = 128 from N_0)
    have ih := scratch_eq c n (Nat.lt_of_succ_lt hn) j
    by_cases h0 : (n + 1) % 16 = 0
    · have h1 : ¬(n + 1) % 16 = 15 := by omega
      rw [outsAt0_A m c ⟨n + 1, hn⟩ h0 h1]
      dsimp only
      refine (congrFun (sout_A (F := Ideal) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) scM0_0 (Memref.isWhole_whole _) _ _ (iblk m c 0 ⟨n + 1, hn⟩)
        (iblk m c 1 ⟨n + 1, hn⟩)) (ix1 j)).trans ?_
      rw [pay1_eq]
      refine (point_eq m c ⟨n + 1, hn⟩ _ j).trans ?_
      rw [pay2_apply]
      show min cap (tileMin _ _ ((n + 1) / 16) ((n + 1) % 16) j) = running _ _ ((n + 1) / 16) ((n + 1) % 16) j
      rw [h0]
      rfl
    · have e1 : (n + 1) / 16 = n / 16 := by omega
      have e2 : (n + 1) % 16 = n % 16 + 1 := by omega
      by_cases h1 : (n + 1) % 16 = 15
      · rw [outsAt0_C m c ⟨n + 1, hn⟩ h0 h1]
        dsimp only
        refine (congrFun (sout_C (F := Ideal) c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) scM0_0 (Memref.isWhole_whole _) _ _ (iblk m c 0 ⟨n + 1, hn⟩)
          (iblk m c 1 ⟨n + 1, hn⟩) (outsAt0 m c n (Nat.lt_of_succ_lt hn)).2) (ix1 j)).trans ?_
        rw [pay1_eq]
        refine (point_eq m c ⟨n + 1, hn⟩ _ j).trans ?_
        show min ((outsAt0 m c n _).2 (ix1 j)) (tileMin _ _ ((n + 1) / 16) ((n + 1) % 16) j) = running _ _ ((n + 1) / 16) ((n + 1) % 16) j
        rw [ih, e1, e2]
        rfl
      · rw [outsAt0_B m c ⟨n + 1, hn⟩ h0 h1]
        dsimp only
        refine (congrFun (sout_B (F := Ideal) c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) scM0_0 (Memref.isWhole_whole _) _ _ (iblk m c 0 ⟨n + 1, hn⟩)
          (iblk m c 1 ⟨n + 1, hn⟩) (outsAt0 m c n (Nat.lt_of_succ_lt hn)).2) (ix1 j)).trans ?_
        rw [pay1_eq]
        refine (point_eq m c ⟨n + 1, hn⟩ _ j).trans ?_
        show min ((outsAt0 m c n _).2 (ix1 j)) (tileMin _ _ ((n + 1) / 16) ((n + 1) % 16) j) = running _ _ ((n + 1) / 16) ((n + 1) % 16) j
        rw [ih, e1, e2]
        rfl

/-- At the last point of target tile g the output block holds, at target j, its least squared distance over all points. -/
theorem out_eq (c : Dev nD) (t : Fin cfg0.N) (h1 : t.val % 16 = 15) (y : S2048.Idx) :
    (outsAt0 m c t.val t.isLt).1 y = nearest (surf m c) (targ m c) (MOf (t.val / 16) (y 0)) := by
  have h0 : ¬t.val % 16 = 0 := by omega
  obtain ⟨j, rfl⟩ : ∃ j : Fin 2048, y = ix1 j := ⟨y 0, eq_ix1 y⟩
  show _ = nearest (surf m c) (targ m c) (MOf (t.val / 16) j)
  have hs := scratch_eq m c t.val t.isLt j
  rw [outsAt0_C m c t h0 h1] at hs ⊢
  dsimp only at hs ⊢
  rw [sout_C] at hs
  rw [out_C, hs, h1]
  exact running_last _ _ _ _

/-- The result vector the region leaves: at every target its least squared distance. -/
def G (c : Dev nD) : S16384.Idx → Ideal .f32 := fun i => nearest (surf m c) (targ m c) (i 0)

/-- The one write-back of target tile g, after its last point, writes block g of that vector. -/
theorem flushed_eq (c : Dev nD) (t : Fin cfg0.N) (hf : (cfg0.win 2).flush t = true) :
    (dats m 0 c).flushed 2 t = ((cfg0.win 2).blk t).view.read (Elt Ideal) (G m c) := by
  have h1 : t.val % 16 = 15 := (flush0_2 t).mp hf
  have hN : t.val < 128 := lt_of_lt_of_eq t.isLt (show cfg0.N = 128 from N_0)
  obtain ⟨-, -, -, -, -, e2⟩ := idx_facts t
  show (cfg0.win 2).cut (grid0.coords t) ((dats m 0 c).after 2 t) = _
  rw [after0_2]
  funext y
  show (outsAt0 m c t.val t.isLt).1 y = G m c (((cfg0.win 2).blk t).view.emb y)
  refine (out_eq m c t h1 y).trans ?_
  unfold G
  refine congrArg (nearest (surf m c) (targ m c)) (Fin.ext ?_)
  show t.val / 16 % 8 * 2048 + (y 0).val = win0_2.index t (0 : Fin 1) * 2048 + 1 * (y 0).val
  rw [e2]; omega

/-- So the result vector ends holding every target's least squared distance: every target lies in some tile's block. -/
theorem final (c : Dev nD) : (dats m 0 c).arrAt 2 cfg0.N = G m c :=
  (dats m 0 c).arrAt_eq_of_cover 2 (G m c) (flushed_eq m c) fun i => by
    have hi : (i 0).val < 16384 := (i 0).isLt
    have hlt : 16 * ((i 0).val / 2048) + 15 < cfg0.N := by rw [show cfg0.N = 128 from N_0]; omega
    refine ⟨⟨16 * ((i 0).val / 2048) + 15, hlt⟩, (flush0_2 _).mpr (by show (16 * ((i 0).val / 2048) + 15) % 16 = 15; omega), ?_⟩
    obtain ⟨-, -, -, -, -, e2⟩ := idx_facts ⟨16 * ((i 0).val / 2048) + 15, hlt⟩
    show i ∈ ((View.whole main_v1).slice (win0_2.rect ⟨16 * ((i 0).val / 2048) + 15, hlt⟩)).set
    rw [View.set_slice_whole, Rect.mem_set_unit]
    intro a
    match a with
    | ⟨0, _⟩ =>
      show win0_2.index ⟨16 * ((i 0).val / 2048) + 15, hlt⟩ (0 : Fin 1) * 2048 ≤ (i 0).val
        ∧ (i 0).val < win0_2.index ⟨16 * ((i 0).val / 2048) + 15, hlt⟩ (0 : Fin 1) * 2048 + 2048
      rw [e2]
      show (16 * ((i 0).val / 2048) + 15) / 16 * 2048 ≤ (i 0).val ∧ (i 0).val < (16 * ((i 0).val / 2048) + 15) / 16 * 2048 + 2048
      omega

/-- The sum the host takes of the result vector. -/
abbrev total (c : Dev nD) : Buf (Elt Ideal) ((c : Thread nD τ).loc main_v2) :=
  Host.reduceAdd (G m c) (constant (F := Ideal) S_ .f32 0x00000000#32) Facts₀.reducesTo_S16384_S_d0 Facts₀.h_S_

/-- What the host lines after the region leave in the result. -/
theorem tail_eq (c : Dev nD) : Pipeline.afterTail₀ cfgs (dats m) 0 (V0 m) [hostOps1] c main_v2 = total m c := by
  unfold Pipeline.afterTail₀
  show StableHlo.after hostOps1 _ (Proc.devRef .tc main_v2) = _
  after_results
  exact congrArg (fun v : S16384.Idx → Ideal .f32 => Host.reduceAdd v (constant (F := Ideal) S_ .f32 0x00000000#32)
      Facts₀.reducesTo_S16384_S_d0 Facts₀.h_S_)
    ((Pipeline.withArrays_arr spec0 launch0.win.arr_inj c (V0 m c) (fun w => (dats m 0 c).arrAt w cfg0.N) 2).trans (final m c))

/-- The run, read: the result at the sum of the least squared distances, the arguments unchanged. -/
theorem run : θ_run defs (onTc (τ := τ) (main (F := Ideal))) ⟨m, fun _ => 0, ρ⟩ fun r => ∀ c : Dev nD,
      r.2.mem ((c : Thread nD τ).loc main_v2) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Value

end Cert.KernelIdeal.KValue

end
-- ==== Proof.LibHostMin.lean ====
/-
  The host's minimum along one axis, over the extended reals, read at an index given by coordinates.

  A one-operand reduction with a `minimum` body over one axis is, at a result index, the fold of `min` from the initial
  value's element over that axis's coordinates: along the middle axis of an `[a, b, c]` array, and along the first axis
  of an `[a, c]` array.
-/
import Idealize.ShloMosaic.Lib.ValueIdx
import Idealize.ShloMosaic.PureOps.Reduce
import Idealize.ShloMosaic.PureOps.Ideal.Laws

noncomputable section

namespace Cert.LibHostMin

open Idealize.ShloMosaic Idealize.ShloMosaic.ValueIdx

variable {φ : FTy} {a b c : ℕ}

/-- The host's minimum along the middle axis at `(p, r)`: the least of the entries `(p, k, r)` and the initial value. -/
theorem hostMin_mid_apply {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduce FloatOps.minimumf x init h' hu (ix2 p r)
      = Finset.univ.fold min (init (Shape.Idx.first hu)) fun k : Fin b => x (ix3 p k r) :=
  (Host.reduce_eq_fold_single FloatOps.minimumf x init h' h hu (ix2 p r)).trans
    (Finset.fold_congr fun k _ => congrArg x (funext fun ax => Fin.ext (by
      match ax with | ⟨0, _⟩ => rfl | ⟨1, _⟩ => rfl | ⟨2, _⟩ => rfl)))

/-- The host's minimum along the first axis at `r`: the least of the entries `(k, r)` and the initial value. -/
theorem hostMin_first_apply {u : Shape} (x : (⟨2, ![a, c]⟩ : Shape).Idx → Ideal φ) (init : u.Idx → Ideal φ)
    (h' : (⟨2, ![a, c]⟩ : Shape).ReducesTo [0] ⟨1, ![c]⟩) (h : (⟨2, ![a, c]⟩ : Shape).Reduces [0] ⟨1, ![c]⟩)
    (hu : 0 < u.numel) (r : Fin c) :
    Host.reduce FloatOps.minimumf x init h' hu (ix1 r)
      = Finset.univ.fold min (init (Shape.Idx.first hu)) fun k : Fin a => x (ix2 k r) :=
  (Host.reduce_eq_fold_single FloatOps.minimumf x init h' h hu (ix1 r)).trans
    (Finset.fold_congr fun k _ => congrArg x (funext fun ax => Fin.ext (by
      match ax with | ⟨0, _⟩ => rfl | ⟨1, _⟩ => rfl)))

end Cert.LibHostMin

end
-- ==== Proof.RefValue.lean ====
/-
  What the reference computes, read index by index over the extended reals.

  Its difference array at (s, n, M) is the expanded squared distance of surface point (s, n) to target M: the two
  squared norms are sums over the three coordinates laid along the missing axes, the cross term the contraction of the
  two arrays over the coordinate axis, doubled.  The minimum over the points of a surface and then over the surfaces,
  each a fold of `min` from the cap over one axis, is the least squared distance to the target.
-/
import proofs.«180294_j69054484185810_1_alg».proof.Proof.Gen.ReferenceIdeal.Read
import proofs.«180294_j69054484185810_1_alg».proof.Proof.Dist
import proofs.«180294_j69054484185810_1_alg».proof.Proof.LibHostMin
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Nearest Cert.LibHostMin

variable (A : (⟨S4x4096x3, .f32⟩ : BufTy).Contents (Elt Ideal)) (B : (⟨S16384x3, .f32⟩ : BufTy).Contents (Elt Ideal))

/-- The difference array at (s, n, M) is the expanded squared distance. -/
theorem diff_apply (s : Fin 4) (n : Fin 4096) (M : Fin 16384) :
    val_main_v12 (F := Ideal) A B (ix3 s n M) = sqDist A B s n M := by
  have e1 : ∀ k : Fin 3, idx_main_v1 (idx_main_v5 (idx_main_v7 (ix3 s n M))) k = ix3 s n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 s n M))) k = ix2 M k := fun k =>
    funext fun a => Fin.ext (by match a with | ⟨0, _⟩ => rfl | ⟨1, _⟩ => rfl)
  have el : ∀ k : Fin 3, lidx_main_v4 (ix3 s n M) k = ix3 s n k := fun k =>
    funext fun a => Fin.ext (by match a with | ⟨0, _⟩ => rfl | ⟨1, _⟩ => rfl | ⟨2, _⟩ => rfl)
  have er : ∀ k : Fin 3, ridx_main_v4 (ix3 s n M) k = ix2 M k := fun k =>
    funext fun a => Fin.ext (by match a with | ⟨0, _⟩ => rfl | ⟨1, _⟩ => rfl)
  rw [val_main_v12_apply, val_main_v9_apply, val_main_v7_apply, val_main_v5_apply, val_main_v1_apply, val_main_v8_apply,
    val_main_v6_apply, val_main_v3_apply, val_main_v11_apply, val_main_v10_apply, val_main_v4_apply]
  simp only [val_main_v0_apply, val_main_v2_apply, val_main_cst_apply, val_main_cst_0_apply, val_main_cst_1_apply,
    Ideal.mulf_def, Ideal.addf_def, Ideal.subf_def, Ideal.ofBits_def, Ideal.ofBits_zero_f32, zero_add, e1, e3, el, er]
  rfl

/-- Surface s's least squared distance to target M. -/
theorem perSurface_apply (s : Fin 4) (M : Fin 16384) :
    val_main_v13 (F := Ideal) A B (ix2 s M) = Finset.univ.fold min cap fun n : Fin 4096 => sqDist A B s n M := by
  unfold val_main_v13
  exact (hostMin_mid_apply (val_main_v12 (F := Ideal) A B) (val_main_cst_2 (F := Ideal)) reducesTo_S4x4096x16384_S4x16384_d1
    (by decide) h_S_ s M).trans (Finset.fold_congr fun n _ => diff_apply A B s n M)

/-- The least squared distance to target M over all surfaces. -/
theorem nearest_apply (M : Fin 16384) : val_main_v14 (F := Ideal) A B (ix1 M) = nearest A B M := by
  unfold val_main_v14 nearest
  exact (hostMin_first_apply (val_main_v13 (F := Ideal) A B) (val_main_cst_3 (F := Ideal)) reducesTo_S4x16384_S16384_d0
    (by decide) h_S_ M).trans (Finset.fold_congr fun s _ => perSurface_apply A B s M)

/-- The whole vector of least squared distances. -/
theorem nearest_fun : val_main_v14 (F := Ideal) A B = fun j => nearest A B (j 0) :=
  funext fun j => (congrArg (val_main_v14 (F := Ideal) A B) (eq_ix1 j)).trans (nearest_apply A B (j 0))

end Cert.ReferenceIdeal.RefValue

end
-- ==== Proof.lean ====
/-
  For every target the kernel finds the least squared distance to any surface point, and sums these over the targets;
  so does the reference.

  The kernel walks the targets in 8 tiles of 2048 and, for each, the surface points in 16 tiles of 1024, keeping per target
  a running minimum of the expanded squared distance (|a|² + |b|²) − 2·(a·b) that starts at the cap; the reference takes the
  minimum over the points of each surface and then over the surfaces.  Over the extended reals a minimum does not depend
  on how its index set is cut up, and the two ways of writing the three-term dot product are one sum, so both leave the
  same vector of least squared distances, and the same final sum.  No finiteness of the inputs is used.
-/
import proofs.«180294_j69054484185810_1_alg».proof.Defs
import proofs.«180294_j69054484185810_1_alg».proof.Proof.Gen.Kernel
import proofs.«180294_j69054484185810_1_alg».proof.Proof.Gen.Kernel.Frame
import proofs.«180294_j69054484185810_1_alg».proof.Proof.Gen.KernelIdeal
import proofs.«180294_j69054484185810_1_alg».proof.Proof.Gen.KernelIdeal.Frame
import proofs.«180294_j69054484185810_1_alg».proof.Proof.Gen.ReferenceIdeal
import proofs.«180294_j69054484185810_1_alg».proof.Proof.Gen.ReferenceIdeal.Run
import proofs.«180294_j69054484185810_1_alg».proof.Proof.Gen.ReferenceIdeal.Read
import proofs.«180294_j69054484185810_1_alg».proof.Proof.Gen.Pre_finite_inputs
import proofs.«180294_j69054484185810_1_alg».proof.Proof.KernelValue
import proofs.«180294_j69054484185810_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the sum, over the targets, of each target's least squared distance to the surface points. -/
theorem algebraic : Cert.algebraic_KernelIdeal_ReferenceIdeal := by
  intro m ρ m' ρ' _ hagree
  refine ⟨fun c => Cert.KernelIdeal.KValue.total m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  unfold Cert.ReferenceIdeal.Read.val_main_v15
  rw [Cert.ReferenceIdeal.RefValue.nearest_fun]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
